-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S32 .f32) (main_arg7 : FVec F S32x16 .f32) (main_arg8 : FVec F S16 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg7
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x32 .f32) (main_arg1 : IVec S1600000 32) (main_arg2 : IVec S1600000 32) (main_arg3 : FVec F S32x32 .f32) (main_arg4 : FVec F S32 .f32) (main_arg5 : FVec F S32x32 .f32) (main_arg6 : FVec F S32 .f32) (main_arg7 : FVec F S32x16 .f32) (main_arg8 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg3
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_v13 main_v16
-- ==== Kernel.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩
abbrev S2000x32 : Shape := ⟨2, ![2000, 32]⟩
abbrev S1x16 : Shape := ⟨2, ![1, 16]⟩
abbrev S100000x16 : Shape := ⟨2, ![100000, 16]⟩
abbrev S2000x16 : Shape := ⟨2, ![2000, 16]⟩

abbrev nBuf : Space → Nat
  | .hbm => 54
  | .vmem => 18
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x32, .f32⟩
  | .hbm, ⟨18, _⟩ => ⟨S_, .f32⟩
  | .hbm, ⟨19, _⟩ => ⟨S100000x32, .f32⟩
  | .hbm, ⟨20, _⟩ => ⟨S1600000x1, .i32⟩
  | .hbm, ⟨21, _⟩ => ⟨S100000x32, .f32⟩
  | .hbm, ⟨22, _⟩ => ⟨S1x32, .f32⟩
  | .hbm, ⟨23, _⟩ => ⟨S100000x32, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x32, .f32⟩
  | .hbm, ⟨33, _⟩ => ⟨S_, .f32⟩
  | .hbm, ⟨34, _⟩ => ⟨S100000x32, .f32⟩
  | .hbm, ⟨35, _⟩ => ⟨S1600000x1, .i32⟩
  | .hbm, ⟨36, _⟩ => ⟨S100000x32, .f32⟩
  | .hbm, ⟨37, _⟩ => ⟨S1x32, .f32⟩
  | .hbm, ⟨38, _⟩ => ⟨S100000x32, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x32, .f32⟩
  | .hbm, ⟨48, _⟩ => ⟨S_, .f32⟩
  | .hbm, ⟨49, _⟩ => ⟨S100000x32, .f32⟩
  | .hbm, ⟨50, _⟩ => ⟨S1600000x1, .i32⟩
  | .hbm, ⟨51, _⟩ => ⟨S100000x32, .f32⟩
  | .hbm, ⟨52, _⟩ => ⟨S1x16, .f32⟩
  | .hbm, ⟨53, _⟩ => ⟨S100000x16, .f32⟩
  | .local _ .vmem, ⟨0, _⟩ => ⟨S2000x32, .f32⟩
  | .local _ .vmem, ⟨1, _⟩ => ⟨S2000x32, .f32⟩
  | .local _ .vmem, ⟨2, _⟩ => ⟨S32x32, .f32⟩
  | .local _ .vmem, ⟨3, _⟩ => ⟨S1x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S32x32, .f32⟩
  | .local _ .vmem, ⟨9, _⟩ => ⟨S1x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S2000x32, .f32⟩
  | .local _ .vmem, ⟨14, _⟩ => ⟨S32x16, .f32⟩
  | .local _ .vmem, ⟨15, _⟩ => ⟨S1x16, .f32⟩
  | .local _ .vmem, ⟨16, _⟩ => ⟨S2000x16, .f32⟩
  | .local _ .vmem, ⟨17, _⟩ => ⟨S2000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  shapeCasts_S32_S1x32 : S32.ShapeCasts S1x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  shapeCasts_S16_S1x16 : S16.ShapeCasts S1x16
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S2000x32_S32x32_S2000x32_1_0_0_1_n_n_wf : DotDims.WF S2000x32 S32x32 S2000x32 [1] [0] [0] [1] [] []
  dot_S2000x32_S32x16_S2000x16_1_0_0_1_n_n_wf : DotDims.WF S2000x32 S32x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x32.size a ≤ S100000x32.size a
  hwx0_3 : ∀ i : grid0.Coords, EltTy.bits .f32 = 32 ∨ (Rect.block (s := S100000x32) S2000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x32.size a ≤ S100000x32.size a
  hwx1_3 : ∀ i : grid1.Coords, EltTy.bits .f32 = 32 ∨ (Rect.block (s := S100000x32) S2000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x16.size a ≤ S100000x16.size a
  hwx2_3 : ∀ i : grid2.Coords, EltTy.bits .f32 = 32 ∨ (Rect.block (s := S100000x16) S2000x16.size (cc2_transform_3 i) (hinb2_3 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf

abbrev win0_0 : Pipeline.Window sig grid0 :=
  Pipeline.Window.ofSpec (Memref.whole main_v9) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S2000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S2000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩
abbrev S100000x16 : Shape := ⟨2, ![100000, 16]⟩
abbrev S1x16 : Shape := ⟨2, ![1, 16]⟩

abbrev nBuf : Space → Nat
  | .hbm => 74
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x32, .f32⟩
  | .hbm, ⟨18, _⟩ => ⟨S_, .f32⟩
  | .hbm, ⟨19, _⟩ => ⟨S100000x32, .f32⟩
  | .hbm, ⟨20, _⟩ => ⟨S1600000x1, .i32⟩
  | .hbm, ⟨21, _⟩ => ⟨S100000x32, .f32⟩
  | .hbm, ⟨22, _⟩ => ⟨S100000x32, .f32⟩
  | .hbm, ⟨23, _⟩ => ⟨S1x32, .f32⟩
  | .hbm, ⟨24, _⟩ => ⟨S100000x32, .f32⟩
  | .hbm, ⟨25, _⟩ => ⟨S100000x32, .f32⟩
  | .hbm, ⟨26, _⟩ => ⟨S_, .f32⟩
  | .hbm, ⟨27, _⟩ => ⟨S100000x32, .f32⟩
  | .hbm, ⟨28, _⟩ => ⟨S100000x32, .i1⟩
  | .hbm, ⟨29, _⟩ => ⟨S_, .f32⟩
  | .hbm, ⟨30, _⟩ => ⟨S100000x32, .f32⟩
  | .hbm, ⟨31, _⟩ => ⟨S100000x32, .f32⟩
  | .hbm, ⟨32, _⟩ => ⟨S100000x32, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x32, .f32⟩
  | .hbm, ⟨42, _⟩ => ⟨S_, .f32⟩
  | .hbm, ⟨43, _⟩ => ⟨S100000x32, .f32⟩
  | .hbm, ⟨44, _⟩ => ⟨S1600000x1, .i32⟩
  | .hbm, ⟨45, _⟩ => ⟨S100000x32, .f32⟩
  | .hbm, ⟨46, _⟩ => ⟨S100000x32, .f32⟩
  | .hbm, ⟨47, _⟩ => ⟨S1x32, .f32⟩
  | .hbm, ⟨48, _⟩ => ⟨S100000x32, .f32⟩
  | .hbm, ⟨49, _⟩ => ⟨S100000x32, .f32⟩
  | .hbm, ⟨50, _⟩ => ⟨S_, .f32⟩
  | .hbm, ⟨51, _⟩ => ⟨S100000x32, .f32⟩
  | .hbm, ⟨52, _⟩ => ⟨S100000x32, .i1⟩
  | .hbm, ⟨53, _⟩ => ⟨S_, .f32⟩
  | .hbm, ⟨54, _⟩ => ⟨S100000x32, .f32⟩
  | .hbm, ⟨55, _⟩ => ⟨S100000x32, .f32⟩
  | .hbm, ⟨56, _⟩ => ⟨S100000x32, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x32, .f32⟩
  | .hbm, ⟨66, _⟩ => ⟨S_, .f32⟩
  | .hbm, ⟨67, _⟩ => ⟨S100000x32, .f32⟩
  | .hbm, ⟨68, _⟩ => ⟨S1600000x1, .i32⟩
  | .hbm, ⟨69, _⟩ => ⟨S100000x32, .f32⟩
  | .hbm, ⟨70, _⟩ => ⟨S100000x16, .f32⟩
  | .hbm, ⟨71, _⟩ => ⟨S1x16, .f32⟩
  | .hbm, ⟨72, _⟩ => ⟨S100000x16, .f32⟩
  | .hbm, ⟨73, _⟩ => ⟨S100000x16, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  dot_S100000x32_S32x16_S100000x16_1_0_0_1_n_n_wf : DotDims.WF S100000x32 S32x16 S100000x16 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.Layer.lean ====
/-
  A three-layer graph network read as mathematics. Each layer aggregates the node features over the edges
  (kept abstract here: a function of the feature array), multiplies by a weight matrix, adds a bias and,
  in the first two layers, applies the leaky rectifier of slope f32(0.1). This module states that function over
  the extended reals, index by index, and reads a kernel body's arithmetic on one block of rows as the same layer.
-/
import Idealize.ShloMosaic.Lib.ValueIdx
import Idealize.ShloMosaic.PureOps.Ideal.Laws
import Idealize.ShloMosaic.Lib.ValueLayout
import Idealize.ShloMosaic.Lib.Pipeline.Value
import proofs.«178452_j44023414784199_1_alg».proof.Proof.LibPlainDot

noncomputable section

namespace Cert.Gcn

open Idealize.ShloMosaic Idealize.ShloMosaic.ValueIdx Cert.PlainDot

variable {M K N : Nat}

/-- The leaky rectifier of slope f32(0.1) on an extended real: `y` itself where `y ≥ 0`, the slope times `y` elsewhere,
    spelt with the comparison, the product and the choice the two programs apply entry by entry. -/
def leaky (y : EReal) : EReal :=
  Scalar.select (FloatOps.cmpf (F := Ideal) (φ := .f32) .oge y (FloatOps.ofBits (F := Ideal) .f32 0x00000000#32)) y
    (FloatOps.mulf (F := Ideal) (φ := .f32) (FloatOps.ofBits (F := Ideal) .f32 0x3DCCCCCD#32) y)

/-- The rectifier applied to every entry of an array. -/
def act {S : Shape} (Y : S.Idx → EReal) : S.Idx → EReal := fun j => leaky (Y j)

/-- One dense layer: entry (r, c) is the sum over k of `A (r, k) * W (k, c)`, plus the bias `b c`. -/
def dense (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun j => (∑ k : Fin K, A (ix2 (j 0) k) * W (ix2 k (j 1))) + b (ix1 (j 1))

/-- The three-layer network over a neighbour aggregation `agg` of the node features: two rectified dense layers of
    width 32 and a plain dense layer of width 16, each fed the aggregation of the layer before. -/
def gcn (agg : ((⟨2, ![100000, 32]⟩ : Shape).Idx → EReal) → ((⟨2, ![100000, 32]⟩ : Shape).Idx → EReal))
    (x : (⟨2, ![100000, 32]⟩ : Shape).Idx → EReal)
    (W1 : (⟨2, ![32, 32]⟩ : Shape).Idx → EReal) (b1 : (⟨1, ![32]⟩ : Shape).Idx → EReal)
    (W2 : (⟨2, ![32, 32]⟩ : Shape).Idx → EReal) (b2 : (⟨1, ![32]⟩ : Shape).Idx → EReal)
    (W3 : (⟨2, ![32, 16]⟩ : Shape).Idx → EReal) (b3 : (⟨1, ![16]⟩ : Shape).Idx → EReal) :
    (⟨2, ![100000, 16]⟩ : Shape).Idx → EReal :=
  dense (agg (act (dense (agg (act (dense (agg x) W1 b1))) W2 b2))) W3 b3

/-- A bias vector reshaped to one row, then added to every row of the product, is the dense layer's bias. -/
theorem affine_row_of_vector (A : (⟨2, ![M, K]⟩ : Shape).Idx → EReal) (W : (⟨2, ![K, N]⟩ : Shape).Idx → EReal)
    (b : (⟨1, ![N]⟩ : Shape).Idx → EReal) (h : (⟨1, ![N]⟩ : Shape).ShapeCasts ⟨2, ![1, N]⟩) :
    affine A W (shapeCast (⟨2, ![1, N]⟩ : Shape) b h) = dense A W b := by
  funext j
  unfold affine dense
  refine congrArg (fun z => (∑ k : Fin K, A (ix2 (j 0) k) * W (ix2 k (j 1))) + z) ?_
  refine (shapeCast_addUnit_apply (n := 1) ![N] b h (ix2 (0 : Fin 1) (j 1))).trans (congrArg b ?_)
  funext a
  match a with
  | ⟨0, _⟩ => rfl

/-- What a kernel body computes for a rectified layer, from its three loaded blocks: the narrowed operands' product
    into a zero accumulator, the bias row broadcast over the rows, the comparison with a splat of the zero word,
    the product with a splat of the slope word, and the choice. Entry by entry it is `leaky` of `affine`. -/
theorem body_rectified (d : DotDims ⟨2, ![M, K]⟩ ⟨2, ![K, N]⟩ ⟨2, ![M, N]⟩) (hd : d = DotDims.plain M K N)
    (x0 : FVec Ideal (⟨2, ![M, K]⟩ : Shape) .f32) (x1 : FVec Ideal (⟨2, ![K, N]⟩ : Shape) .f32)
    (x2 : FVec Ideal (⟨2, ![1, N]⟩ : Shape) .f32)
    (h0 : (⟨2, ![M, K]⟩ : Shape).ShapeCasts ⟨2, ![M, K]⟩) (hn : FTy.bits .bf16 < FTy.bits .f32)
    (h2 : (⟨2, ![1, N]⟩ : Shape).ShapeCasts ⟨2, ![1, N]⟩) (hb : (⟨2, ![1, N]⟩ : Shape).Broadcasts ⟨2, ![M, N]⟩) :
    select
        (cmpf .oge
          (addf (matmul d none (truncf .bf16 (shapeCast (⟨2, ![M, K]⟩ : Shape) x0 h0) hn) (truncf .bf16 x1 hn)
              (constant (⟨2, ![M, N]⟩ : Shape) .f32 0x00000000#32))
            (broadcastTo (⟨2, ![M, N]⟩ : Shape) (shapeCast (⟨2, ![1, N]⟩ : Shape) x2 h2) hb))
          (broadcast (⟨2, ![M, N]⟩ : Shape) (Scalar.ofBits (F := Ideal) .f32 0x00000000#32)))
        (addf (matmul d none (truncf .bf16 (shapeCast (⟨2, ![M, K]⟩ : Shape) x0 h0) hn) (truncf .bf16 x1 hn)
            (constant (⟨2, ![M, N]⟩ : Shape) .f32 0x00000000#32))
          (broadcastTo (⟨2, ![M, N]⟩ : Shape) (shapeCast (⟨2, ![1, N]⟩ : Shape) x2 h2) hb))
        (mulf (broadcast (⟨2, ![M, N]⟩ : Shape) (Scalar.ofBits (F := Ideal) .f32 0x3DCCCCCD#32))
          (addf (matmul d none (truncf .bf16 (shapeCast (⟨2, ![M, K]⟩ : Shape) x0 h0) hn) (truncf .bf16 x1 hn)
              (constant (⟨2, ![M, N]⟩ : Shape) .f32 0x00000000#32))
            (broadcastTo (⟨2, ![M, N]⟩ : Shape) (shapeCast (⟨2, ![1, N]⟩ : Shape) x2 h2) hb)))
      = act (affine x0 x1 x2) := by
  subst hd
  rw [shapeCast_self, shapeCast_self]
  have e := matmul_add_row_eq (M := M) (K := K) (N := N) none (truncf .bf16 x0 hn) (truncf .bf16 x1 hn) x2 hb
  rw [e]
  rfl

/-- The same without the rectifier: the last layer's body. -/
theorem body_plain (d : DotDims ⟨2, ![M, K]⟩ ⟨2, ![K, N]⟩ ⟨2, ![M, N]⟩) (hd : d = DotDims.plain M K N)
    (x0 : FVec Ideal (⟨2, ![M, K]⟩ : Shape) .f32) (x1 : FVec Ideal (⟨2, ![K, N]⟩ : Shape) .f32)
    (x2 : FVec Ideal (⟨2, ![1, N]⟩ : Shape) .f32)
    (h0 : (⟨2, ![M, K]⟩ : Shape).ShapeCasts ⟨2, ![M, K]⟩) (hn : FTy.bits .bf16 < FTy.bits .f32)
    (h2 : (⟨2, ![1, N]⟩ : Shape).ShapeCasts ⟨2, ![1, N]⟩) (hb : (⟨2, ![1, N]⟩ : Shape).Broadcasts ⟨2, ![M, N]⟩) :
    addf (matmul d none (truncf .bf16 (shapeCast (⟨2, ![M, K]⟩ : Shape) x0 h0) hn) (truncf .bf16 x1 hn)
          (constant (⟨2, ![M, N]⟩ : Shape) .f32 0x00000000#32))
        (broadcastTo (⟨2, ![M, N]⟩ : Shape) (shapeCast (⟨2, ![1, N]⟩ : Shape) x2 h2) hb)
      = affine x0 x1 x2 := by
  subst hd
  rw [shapeCast_self, shapeCast_self]
  exact matmul_add_row_eq (M := M) (K := K) (N := N) none (truncf .bf16 x0 hn) (truncf .bf16 x1 hn) x2 hb

end Cert.Gcn

end
-- ==== Proof.KernelLayer0.lean ====
/-
  The first layer's dense stage, read off the pipeline that computes it fifty blocks of 2000 rows at a time.
  At each grid point the body multiplies a [2000, 32] block of the aggregated features by the whole [32, 32]
  weight matrix, adds the bias row and applies the leaky rectifier; block t of the output holds rows
  2000 t … 2000 t + 1999. Since row r of the product depends only on row r of the left operand, the blocks are
  restrictions of ONE function of the whole arrays, and the fifty blocks tile the [100000, 32] output.
-/
import proofs.«178452_j44023414784199_1_alg».proof.Proof.Gen.KernelIdeal.Frame
import proofs.«178452_j44023414784199_1_alg».proof.Proof.Layer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen Cert.Gcn Cert.PlainDot

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The body's contraction is the plain rows-by-columns one. -/
theorem dot_plain : dot_S2000x32_S32x32_S2000x32_1_0_0_1_n_n = DotDims.plain 2000 32 32 := rfl

/-- The body's stored value, entry by entry: the rectifier of (block of features) · weights + bias row. -/
theorem pay_eq (x0 : Vec Ideal S2000x32 .f32) (x1 : Vec Ideal S32x32 .f32) (x2 : Vec Ideal S1x32 .f32) :
    k0_pay1 x0 x1 x2 = act (affine (M := 2000) (K := 32) (N := 32) x0 x1 x2) := by
  unfold k0_pay1
  exact body_rectified _ dot_plain x0 x1 x2 _ _ _ _

/-- The block indices at grid point `t`: the features' and the output's blocks are block row `t`; the weights and
    the bias row are fetched whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the features' block at point `t` is row `2000 t + p` of the aggregated features. -/
theorem read_rows (c : Dev nD) (t : Fin cfg0.N) (p : Fin 2000) (k : Fin 32) (r : Fin 100000)
    (hr : r.val = t.val * 2000 + p.val) :
    (iblk0 V c 0 t : Vec Ideal S2000x32 .f32) (ix2 p k)
      = (V c main_v9 : (⟨2, ![100000, 32]⟩ : Shape).Idx → EReal) (ix2 r k) := by
  obtain ⟨e00, e01, -⟩ := idx_facts t
  unfold iblk0
  rw [View.read_apply]
  show V c main_v9 _ = V c main_v9 _
  refine congrArg (V c main_v9) (funext fun a => Fin.ext ?_)
  match a with
  | ⟨0, _⟩ => show win0_0.index t (0 : Fin 2) * 2000 + 1 * p.val = r.val; rw [e00, hr]; omega
  | ⟨1, _⟩ => show win0_0.index t (1 : Fin 2) * 32 + 1 * k.val = k.val; rw [e01]; omega

/-- The weights' block is the weight matrix. -/
theorem read_weights (c : Dev nD) (t : Fin cfg0.N) (k : Fin 32) (q : Fin 32) :
    (iblk0 V c 1 t : Vec Ideal S32x32 .f32) (ix2 k q)
      = (V c main_arg3 : (⟨2, ![32, 32]⟩ : Shape).Idx → EReal) (ix2 k q) := by
  obtain ⟨-, -, e10, e11, -⟩ := idx_facts t
  unfold iblk0
  rw [View.read_apply]
  show V c main_arg3 _ = V c main_arg3 _
  refine congrArg (V c main_arg3) (funext fun a => Fin.ext ?_)
  match a with
  | ⟨0, _⟩ => show win0_1.index t (0 : Fin 2) * 32 + 1 * k.val = k.val; rw [e10]; omega
  | ⟨1, _⟩ => show win0_1.index t (1 : Fin 2) * 32 + 1 * q.val = q.val; rw [e11]; omega

/-- The bias row's block is the bias row. -/
theorem read_bias (c : Dev nD) (t : Fin cfg0.N) (q : Fin 32) :
    (iblk0 V c 2 t : Vec Ideal S1x32 .f32) (ix2 (0 : Fin 1) q)
      = (V c main_v10 : (⟨2, ![1, 32]⟩ : Shape).Idx → EReal) (ix2 (0 : Fin 1) q) := by
  obtain ⟨-, -, -, -, e20, e21, -⟩ := idx_facts t
  unfold iblk0
  rw [View.read_apply]
  show V c main_v10 _ = V c main_v10 _
  refine congrArg (V c main_v10) (funext fun a => Fin.ext ?_)
  match a with
  | ⟨0, _⟩ => show win0_2.index t (0 : Fin 2) * 1 + 1 * 0 = 0; rw [e20]
  | ⟨1, _⟩ => show win0_2.index t (1 : Fin 2) * 32 + 1 * q.val = q.val; rw [e21]; omega

/-- What point `t` writes back is block `t` of the rectified dense layer of the arrays the region found. -/
theorem flushed_eq (c : Dev nD) (t : Fin cfg0.N) :
    (dat0 V c).flushed 3 t = ((cfg0.win 3).blk t).view.read (Elt Ideal)
      (act (affine (M := 100000) (K := 32) (N := 32) (V c main_v9) (V c main_arg3) (V c main_v10))) := by
  show (cfg0.win 3).cut (grid0.coords t) ((dat0 V c).after 3 t) = _
  rw [after0_3]
  unfold out0_3
  rw [View.canon_unit_zero hz]
  simp only [View.ld_unit_zero (S := S2000x32) hz, View.ld_unit_zero (S := S32x32) hz, View.ld_unit_zero (S := S1x32) hz]
  rw [pay_eq]
  obtain ⟨-, -, -, -, -, -, e30, e31⟩ := idx_facts t
  funext j
  obtain ⟨p, q, rfl⟩ : ∃ (p : Fin 2000) (q : Fin 32), j = ix2 p q := ⟨j 0, j 1, eq_ix2 j⟩
  rw [View.read_apply]
  have hr : ((((cfg0.win 3).blk t).view.emb (ix2 p q)) (0 : Fin 2)).val = t.val * 2000 + p.val := by
    show win0_3.index t (0 : Fin 2) * 2000 + 1 * p.val = _; rw [e30]; omega
  have hq : (((cfg0.win 3).blk t).view.emb (ix2 p q)) (1 : Fin 2) = q := Fin.ext (by
    show win0_3.index t (1 : Fin 2) * 32 + 1 * q.val = q.val; rw [e31]; omega)
  show leaky (affine (M := 2000) (K := 32) (N := 32) (iblk0 V c 0 t) (iblk0 V c 1 t) (iblk0 V c 2 t) (ix2 p q))
    = leaky (affine (M := 100000) (K := 32) (N := 32) (V c main_v9) (V c main_arg3) (V c main_v10) (((cfg0.win 3).blk t).view.emb (ix2 p q)))
  refine congrArg leaky ?_
  unfold affine
  rw [hq]
  exact congrArg₂ (· + ·)
    (Finset.sum_congr rfl fun k _ => congrArg₂ (· * ·) (read_rows V c t p k _ hr) (read_weights V c t k q))
    (read_bias V c t q)

/-- An index of the layer's output array is in point `t`'s block iff each coordinate is in the block's range. -/
theorem mem_blk (t : Fin cfg0.N) (i : S100000x32.Idx) :
    i ∈ ((cfg0.win 3).blk t).view.set ↔ ∀ a : Fin 2, win0_3.index t a * S2000x32.size a ≤ (i a).val ∧ (i a).val < win0_3.index t a * S2000x32.size a + S2000x32.size a := by
  show i ∈ ((View.whole main_v11).slice (win0_3.rect t)).set ↔ _
  rw [View.set_slice_whole, Rect.mem_set_unit]
  exact Iff.rfl

/-- After the region the layer's output array is the rectified dense layer of the arrays the region found:
    row `r` is written by the grid point `r / 2000`, and the fifty blocks of 2000 rows tile the array. -/
theorem final (c : Dev nD) :
    (dat0 V c).arrAt 3 cfg0.N
      = act (affine (M := 100000) (K := 32) (N := 32) (V c main_v9) (V c main_arg3) (V c main_v10)) :=
  (dat0 V c).arrAt_eq_of_cover 3 _ (fun t _ => flushed_eq V c t) fun i => by
    have h0 : (i 0).val < 100000 := (i 0).isLt
    have h1 : (i 1).val < 32 := (i 1).isLt
    have hN : cfg0.N = 50 := N_0
    have ht : (i 0).val / 2000 < cfg0.N := by rw [hN]; omega
    obtain ⟨-, -, -, -, -, -, e30, e31⟩ := idx_facts ⟨(i 0).val / 2000, ht⟩
    refine ⟨⟨(i 0).val / 2000, ht⟩, flush0_3 _, ?_⟩
    rw [mem_blk]
    intro a
    match a with
    | ⟨0, _⟩ =>
      show win0_3.index ⟨(i 0).val / 2000, ht⟩ (0 : Fin 2) * 2000 ≤ (i 0).val ∧ (i 0).val < win0_3.index ⟨(i 0).val / 2000, ht⟩ (0 : Fin 2) * 2000 + 2000
      rw [e30]
      show (i 0).val / 2000 * 2000 ≤ (i 0).val ∧ (i 0).val < (i 0).val / 2000 * 2000 + 2000
      omega
    | ⟨1, _⟩ =>
      show win0_3.index ⟨(i 0).val / 2000, ht⟩ (1 : Fin 2) * 32 ≤ (i 1).val ∧ (i 1).val < win0_3.index ⟨(i 0).val / 2000, ht⟩ (1 : Fin 2) * 32 + 32
      rw [e31]
      omega

end Cert.KernelIdeal.Layer0

end
-- ==== Proof.KernelLayer1.lean ====
/-
  The second layer's dense stage, read off the pipeline that computes it fifty blocks of 2000 rows at a time.
  At each grid point the body multiplies a [2000, 32] block of the aggregated hidden features by the whole
  [32, 32] weight matrix, adds the bias row and applies the leaky rectifier; block t of the output holds rows
  2000 t … 2000 t + 1999. Row r of the product depends only on row r of the left operand, so the blocks are
  restrictions of ONE function of the whole arrays, and the fifty blocks tile the [100000, 32] output.
-/
import proofs.«178452_j44023414784199_1_alg».proof.Proof.Gen.KernelIdeal.Frame
import proofs.«178452_j44023414784199_1_alg».proof.Proof.Layer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.Gcn Cert.PlainDot

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The body's contraction is the plain rows-by-columns one. -/
theorem dot_plain : dot_S2000x32_S32x32_S2000x32_1_0_0_1_n_n = DotDims.plain 2000 32 32 := rfl

/-- The body's stored value, entry by entry: the rectifier of (block of features) · weights + bias row. -/
theorem pay_eq (x0 : Vec Ideal S2000x32 .f32) (x1 : Vec Ideal S32x32 .f32) (x2 : Vec Ideal S1x32 .f32) :
    k1_pay1 x0 x1 x2 = act (affine (M := 2000) (K := 32) (N := 32) x0 x1 x2) := by
  unfold k1_pay1
  exact body_rectified _ dot_plain x0 x1 x2 _ _ _ _

/-- The block indices at grid point `t`: the features' and the output's blocks are block row `t`; the weights and
    the bias row are fetched whole at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the features' block at point `t` is row `2000 t + p` of the aggregated hidden features. -/
theorem read_rows (c : Dev nD) (t : Fin cfg1.N) (p : Fin 2000) (k : Fin 32) (r : Fin 100000)
    (hr : r.val = t.val * 2000 + p.val) :
    (iblk1 V c 0 t : Vec Ideal S2000x32 .f32) (ix2 p k)
      = (V c main_v21 : (⟨2, ![100000, 32]⟩ : Shape).Idx → EReal) (ix2 r k) := by
  obtain ⟨e00, e01, -⟩ := idx_facts t
  unfold iblk1
  rw [View.read_apply]
  show V c main_v21 _ = V c main_v21 _
  refine congrArg (V c main_v21) (funext fun a => Fin.ext ?_)
  match a with
  | ⟨0, _⟩ => show win1_0.index t (0 : Fin 2) * 2000 + 1 * p.val = r.val; rw [e00, hr]; omega
  | ⟨1, _⟩ => show win1_0.index t (1 : Fin 2) * 32 + 1 * k.val = k.val; rw [e01]; omega

/-- The weights' block is the weight matrix. -/
theorem read_weights (c : Dev nD) (t : Fin cfg1.N) (k : Fin 32) (q : Fin 32) :
    (iblk1 V c 1 t : Vec Ideal S32x32 .f32) (ix2 k q)
      = (V c main_arg5 : (⟨2, ![32, 32]⟩ : Shape).Idx → EReal) (ix2 k q) := by
  obtain ⟨-, -, e10, e11, -⟩ := idx_facts t
  unfold iblk1
  rw [View.read_apply]
  show V c main_arg5 _ = V c main_arg5 _
  refine congrArg (V c main_arg5) (funext fun a => Fin.ext ?_)
  match a with
  | ⟨0, _⟩ => show win1_1.index t (0 : Fin 2) * 32 + 1 * k.val = k.val; rw [e10]; omega
  | ⟨1, _⟩ => show win1_1.index t (1 : Fin 2) * 32 + 1 * q.val = q.val; rw [e11]; omega

/-- The bias row's block is the bias row. -/
theorem read_bias (c : Dev nD) (t : Fin cfg1.N) (q : Fin 32) :
    (iblk1 V c 2 t : Vec Ideal S1x32 .f32) (ix2 (0 : Fin 1) q)
      = (V c main_v22 : (⟨2, ![1, 32]⟩ : Shape).Idx → EReal) (ix2 (0 : Fin 1) q) := by
  obtain ⟨-, -, -, -, e20, e21, -⟩ := idx_facts t
  unfold iblk1
  rw [View.read_apply]
  show V c main_v22 _ = V c main_v22 _
  refine congrArg (V c main_v22) (funext fun a => Fin.ext ?_)
  match a with
  | ⟨0, _⟩ => show win1_2.index t (0 : Fin 2) * 1 + 1 * 0 = 0; rw [e20]
  | ⟨1, _⟩ => show win1_2.index t (1 : Fin 2) * 32 + 1 * q.val = q.val; rw [e21]; omega

/-- What point `t` writes back is block `t` of the rectified dense layer of the arrays the region found. -/
theorem flushed_eq (c : Dev nD) (t : Fin cfg1.N) :
    (dat1 V c).flushed 3 t = ((cfg1.win 3).blk t).view.read (Elt Ideal)
      (act (affine (M := 100000) (K := 32) (N := 32) (V c main_v21) (V c main_arg5) (V c main_v22))) := by
  show (cfg1.win 3).cut (grid1.coords t) ((dat1 V c).after 3 t) = _
  rw [after1_3]
  unfold out1_3
  rw [View.canon_unit_zero hz]
  simp only [View.ld_unit_zero (S := S2000x32) hz, View.ld_unit_zero (S := S32x32) hz, View.ld_unit_zero (S := S1x32) hz]
  rw [pay_eq]
  obtain ⟨-, -, -, -, -, -, e30, e31⟩ := idx_facts t
  funext j
  obtain ⟨p, q, rfl⟩ : ∃ (p : Fin 2000) (q : Fin 32), j = ix2 p q := ⟨j 0, j 1, eq_ix2 j⟩
  rw [View.read_apply]
  have hr : ((((cfg1.win 3).blk t).view.emb (ix2 p q)) (0 : Fin 2)).val = t.val * 2000 + p.val := by
    show win1_3.index t (0 : Fin 2) * 2000 + 1 * p.val = _; rw [e30]; omega
  have hq : (((cfg1.win 3).blk t).view.emb (ix2 p q)) (1 : Fin 2) = q := Fin.ext (by
    show win1_3.index t (1 : Fin 2) * 32 + 1 * q.val = q.val; rw [e31]; omega)
  show leaky (affine (M := 2000) (K := 32) (N := 32) (iblk1 V c 0 t) (iblk1 V c 1 t) (iblk1 V c 2 t) (ix2 p q))
    = leaky (affine (M := 100000) (K := 32) (N := 32) (V c main_v21) (V c main_arg5) (V c main_v22) (((cfg1.win 3).blk t).view.emb (ix2 p q)))
  refine congrArg leaky ?_
  unfold affine
  rw [hq]
  exact congrArg₂ (· + ·)
    (Finset.sum_congr rfl fun k _ => congrArg₂ (· * ·) (read_rows V c t p k _ hr) (read_weights V c t k q))
    (read_bias V c t q)

/-- An index of the layer's output array is in point `t`'s block iff each coordinate is in the block's range. -/
theorem mem_blk (t : Fin cfg1.N) (i : S100000x32.Idx) :
    i ∈ ((cfg1.win 3).blk t).view.set ↔ ∀ a : Fin 2, win1_3.index t a * S2000x32.size a ≤ (i a).val ∧ (i a).val < win1_3.index t a * S2000x32.size a + S2000x32.size a := by
  show i ∈ ((View.whole main_v23).slice (win1_3.rect t)).set ↔ _
  rw [View.set_slice_whole, Rect.mem_set_unit]
  exact Iff.rfl

/-- After the region the layer's output array is the rectified dense layer of the arrays the region found:
    row `r` is written by the grid point `r / 2000`, and the fifty blocks of 2000 rows tile the array. -/
theorem final (c : Dev nD) :
    (dat1 V c).arrAt 3 cfg1.N
      = act (affine (M := 100000) (K := 32) (N := 32) (V c main_v21) (V c main_arg5) (V c main_v22)) :=
  (dat1 V c).arrAt_eq_of_cover 3 _ (fun t _ => flushed_eq V c t) fun i => by
    have h0 : (i 0).val < 100000 := (i 0).isLt
    have h1 : (i 1).val < 32 := (i 1).isLt
    have hN : cfg1.N = 50 := N_1
    have ht : (i 0).val / 2000 < cfg1.N := by rw [hN]; omega
    obtain ⟨-, -, -, -, -, -, e30, e31⟩ := idx_facts ⟨(i 0).val / 2000, ht⟩
    refine ⟨⟨(i 0).val / 2000, ht⟩, flush1_3 _, ?_⟩
    rw [mem_blk]
    intro a
    match a with
    | ⟨0, _⟩ =>
      show win1_3.index ⟨(i 0).val / 2000, ht⟩ (0 : Fin 2) * 2000 ≤ (i 0).val ∧ (i 0).val < win1_3.index ⟨(i 0).val / 2000, ht⟩ (0 : Fin 2) * 2000 + 2000
      rw [e30]
      show (i 0).val / 2000 * 2000 ≤ (i 0).val ∧ (i 0).val < (i 0).val / 2000 * 2000 + 2000
      omega
    | ⟨1, _⟩ =>
      show win1_3.index ⟨(i 0).val / 2000, ht⟩ (1 : Fin 2) * 32 ≤ (i 1).val ∧ (i 1).val < win1_3.index ⟨(i 0).val / 2000, ht⟩ (1 : Fin 2) * 32 + 32
      rw [e31]
      omega

end Cert.KernelIdeal.Layer1

end
-- ==== Proof.KernelLayer2.lean ====
/-
  The output layer's dense stage, read off the pipeline that computes it fifty blocks of 2000 rows at a time.
  At each grid point the body multiplies a [2000, 32] block of the aggregated hidden features by the whole
  [32, 16] weight matrix and adds the bias row (no rectifier on the last layer); block t of the output holds rows
  2000 t … 2000 t + 1999. Row r of the product depends only on row r of the left operand, so the blocks are
  restrictions of ONE function of the whole arrays, and the fifty blocks tile the [100000, 16] output.
-/
import proofs.«178452_j44023414784199_1_alg».proof.Proof.Gen.KernelIdeal.Frame
import proofs.«178452_j44023414784199_1_alg».proof.Proof.Layer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.Gcn Cert.PlainDot

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The body's contraction is the plain rows-by-columns one. -/
theorem dot_plain : dot_S2000x32_S32x16_S2000x16_1_0_0_1_n_n = DotDims.plain 2000 32 16 := rfl

/-- The body's stored value, entry by entry: (block of features) · weights + bias row. -/
theorem pay_eq (x0 : Vec Ideal S2000x32 .f32) (x1 : Vec Ideal S32x16 .f32) (x2 : Vec Ideal S1x16 .f32) :
    k2_pay1 x0 x1 x2 = affine (M := 2000) (K := 32) (N := 16) x0 x1 x2 := by
  unfold k2_pay1
  exact body_plain _ dot_plain x0 x1 x2 _ _ _ _

/-- The block indices at grid point `t`: the features' and the output's blocks are block row `t`; the weights and
    the bias row are fetched whole at every point. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the features' block at point `t` is row `2000 t + p` of the aggregated hidden features. -/
theorem read_rows (c : Dev nD) (t : Fin cfg2.N) (p : Fin 2000) (k : Fin 32) (r : Fin 100000)
    (hr : r.val = t.val * 2000 + p.val) :
    (iblk2 V c 0 t : Vec Ideal S2000x32 .f32) (ix2 p k)
      = (V c main_v33 : (⟨2, ![100000, 32]⟩ : Shape).Idx → EReal) (ix2 r k) := by
  obtain ⟨e00, e01, -⟩ := idx_facts t
  unfold iblk2
  rw [View.read_apply]
  show V c main_v33 _ = V c main_v33 _
  refine congrArg (V c main_v33) (funext fun a => Fin.ext ?_)
  match a with
  | ⟨0, _⟩ => show win2_0.index t (0 : Fin 2) * 2000 + 1 * p.val = r.val; rw [e00, hr]; omega
  | ⟨1, _⟩ => show win2_0.index t (1 : Fin 2) * 32 + 1 * k.val = k.val; rw [e01]; omega

/-- The weights' block is the weight matrix. -/
theorem read_weights (c : Dev nD) (t : Fin cfg2.N) (k : Fin 32) (q : Fin 16) :
    (iblk2 V c 1 t : Vec Ideal S32x16 .f32) (ix2 k q)
      = (V c main_arg7 : (⟨2, ![32, 16]⟩ : Shape).Idx → EReal) (ix2 k q) := by
  obtain ⟨-, -, e10, e11, -⟩ := idx_facts t
  unfold iblk2
  rw [View.read_apply]
  show V c main_arg7 _ = V c main_arg7 _
  refine congrArg (V c main_arg7) (funext fun a => Fin.ext ?_)
  match a with
  | ⟨0, _⟩ => show win2_1.index t (0 : Fin 2) * 32 + 1 * k.val = k.val; rw [e10]; omega
  | ⟨1, _⟩ => show win2_1.index t (1 : Fin 2) * 16 + 1 * q.val = q.val; rw [e11]; omega

/-- The bias row's block is the bias row. -/
theorem read_bias (c : Dev nD) (t : Fin cfg2.N) (q : Fin 16) :
    (iblk2 V c 2 t : Vec Ideal S1x16 .f32) (ix2 (0 : Fin 1) q)
      = (V c main_v34 : (⟨2, ![1, 16]⟩ : Shape).Idx → EReal) (ix2 (0 : Fin 1) q) := by
  obtain ⟨-, -, -, -, e20, e21, -⟩ := idx_facts t
  unfold iblk2
  rw [View.read_apply]
  show V c main_v34 _ = V c main_v34 _
  refine congrArg (V c main_v34) (funext fun a => Fin.ext ?_)
  match a with
  | ⟨0, _⟩ => show win2_2.index t (0 : Fin 2) * 1 + 1 * 0 = 0; rw [e20]
  | ⟨1, _⟩ => show win2_2.index t (1 : Fin 2) * 16 + 1 * q.val = q.val; rw [e21]; omega

/-- What point `t` writes back is block `t` of the dense layer of the arrays the region found. -/
theorem flushed_eq (c : Dev nD) (t : Fin cfg2.N) :
    (dat2 V c).flushed 3 t = ((cfg2.win 3).blk t).view.read (Elt Ideal)
      (affine (M := 100000) (K := 32) (N := 16) (V c main_v33) (V c main_arg7) (V c main_v34)) := by
  show (cfg2.win 3).cut (grid2.coords t) ((dat2 V c).after 3 t) = _
  rw [after2_3]
  unfold out2_3
  rw [View.canon_unit_zero hz]
  simp only [View.ld_unit_zero (S := S2000x32) hz, View.ld_unit_zero (S := S32x16) hz, View.ld_unit_zero (S := S1x16) hz]
  rw [pay_eq]
  obtain ⟨-, -, -, -, -, -, e30, e31⟩ := idx_facts t
  funext j
  obtain ⟨p, q, rfl⟩ : ∃ (p : Fin 2000) (q : Fin 16), j = ix2 p q := ⟨j 0, j 1, eq_ix2 j⟩
  rw [View.read_apply]
  have hr : ((((cfg2.win 3).blk t).view.emb (ix2 p q)) (0 : Fin 2)).val = t.val * 2000 + p.val := by
    show win2_3.index t (0 : Fin 2) * 2000 + 1 * p.val = _; rw [e30]; omega
  have hq : (((cfg2.win 3).blk t).view.emb (ix2 p q)) (1 : Fin 2) = q := Fin.ext (by
    show win2_3.index t (1 : Fin 2) * 16 + 1 * q.val = q.val; rw [e31]; omega)
  show affine (M := 2000) (K := 32) (N := 16) (iblk2 V c 0 t) (iblk2 V c 1 t) (iblk2 V c 2 t) (ix2 p q)
    = affine (M := 100000) (K := 32) (N := 16) (V c main_v33) (V c main_arg7) (V c main_v34) (((cfg2.win 3).blk t).view.emb (ix2 p q))
  unfold affine
  rw [hq]
  exact congrArg₂ (· + ·)
    (Finset.sum_congr rfl fun k _ => congrArg₂ (· * ·) (read_rows V c t p k _ hr) (read_weights V c t k q))
    (read_bias V c t q)

/-- An index of the layer's output array is in point `t`'s block iff each coordinate is in the block's range. -/
theorem mem_blk (t : Fin cfg2.N) (i : S100000x16.Idx) :
    i ∈ ((cfg2.win 3).blk t).view.set ↔ ∀ a : Fin 2, win2_3.index t a * S2000x16.size a ≤ (i a).val ∧ (i a).val < win2_3.index t a * S2000x16.size a + S2000x16.size a := by
  show i ∈ ((View.whole main_v35).slice (win2_3.rect t)).set ↔ _
  rw [View.set_slice_whole, Rect.mem_set_unit]
  exact Iff.rfl

/-- After the region the result array is the dense layer of the arrays the region found:
    row `r` is written by the grid point `r / 2000`, and the fifty blocks of 2000 rows tile the array. -/
theorem final (c : Dev nD) :
    (dat2 V c).arrAt 3 cfg2.N
      = affine (M := 100000) (K := 32) (N := 16) (V c main_v33) (V c main_arg7) (V c main_v34) :=
  (dat2 V c).arrAt_eq_of_cover 3 _ (fun t _ => flushed_eq V c t) fun i => by
    have h0 : (i 0).val < 100000 := (i 0).isLt
    have h1 : (i 1).val < 16 := (i 1).isLt
    have hN : cfg2.N = 50 := N_2
    have ht : (i 0).val / 2000 < cfg2.N := by rw [hN]; omega
    obtain ⟨-, -, -, -, -, -, e30, e31⟩ := idx_facts ⟨(i 0).val / 2000, ht⟩
    refine ⟨⟨(i 0).val / 2000, ht⟩, flush2_3 _, ?_⟩
    rw [mem_blk]
    intro a
    match a with
    | ⟨0, _⟩ =>
      show win2_3.index ⟨(i 0).val / 2000, ht⟩ (0 : Fin 2) * 2000 ≤ (i 0).val ∧ (i 0).val < win2_3.index ⟨(i 0).val / 2000, ht⟩ (0 : Fin 2) * 2000 + 2000
      rw [e30]
      show (i 0).val / 2000 * 2000 ≤ (i 0).val ∧ (i 0).val < (i 0).val / 2000 * 2000 + 2000
      omega
    | ⟨1, _⟩ =>
      show win2_3.index ⟨(i 0).val / 2000, ht⟩ (1 : Fin 2) * 16 ≤ (i 1).val ∧ (i 1).val < win2_3.index ⟨(i 0).val / 2000, ht⟩ (1 : Fin 2) * 16 + 16
      rw [e31]
      omega

end Cert.KernelIdeal.Layer2

end
-- ==== Proof.KernelValue.lean ====
/-
  The kernel program's result array as the three-layer network of the argument arrays.
  @main alternates three stretches of host operations with three pipelined dense stages. Each host stretch computes the
  neighbour aggregation of the current features (gather at the wrapped source indices, scatter-add at the destinations)
  and reshapes the layer's bias to one row; each dense stage leaves the (rectified) product with the weights plus that
  row. Reading the buffers at each boundary back to the launch contents, layer by layer, gives `gcn` over this
  aggregation.
-/
import proofs.«178452_j44023414784199_1_alg».proof.Proof.Gen.KernelIdeal.Frame
import proofs.«178452_j44023414784199_1_alg».proof.Proof.KernelRun
import proofs.«178452_j44023414784199_1_alg».proof.Proof.Layer
import proofs.«178452_j44023414784199_1_alg».proof.Proof.KernelLayer0
import proofs.«178452_j44023414784199_1_alg».proof.Proof.KernelLayer1
import proofs.«178452_j44023414784199_1_alg».proof.Proof.KernelLayer2
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.StableHlo

namespace Cert.KernelIdeal.Net

open Cert.KernelIdeal Cert.KernelIdeal.Gen Cert.Gcn Cert.PlainDot

/-- The neighbour aggregation as @main's host operations spell it: the source indices with the negative ones wrapped,
    the rows of `h` gathered at them, and the gathered rows added into a zero array at the destination indices. -/
def aggK (h : (⟨S100000x32, .f32⟩ : BufTy).Contents (Elt Ideal)) (src dst : (⟨S1600000, .i32⟩ : BufTy).Contents (Elt Ideal)) :
    (⟨S100000x32, .f32⟩ : BufTy).Contents (Elt Ideal) :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 dst)
    (Host.gather gather_S100000x32_S1600000x1_S1600000x32_1_0_n_n_0_1_132 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-! ## The host stretches, from any contents -/

/-- The first stretch aggregates the input features. -/
theorem s0_agg (W : Valuation τ sig (Elt Ideal)) :
    after hostOps0 W (Proc.devRef .tc main_v9)
      = aggK (W (Proc.devRef .tc main_arg0)) (W (Proc.devRef .tc main_arg1)) (W (Proc.devRef .tc main_arg2)) := by
  after_results
  rfl

/-- The first stretch reshapes the first bias to a row. -/
theorem s0_bias (W : Valuation τ sig (Elt Ideal)) :
    after hostOps0 W (Proc.devRef .tc main_v10) = shapeCast S1x32 (W (Proc.devRef .tc main_arg4)) shapeCasts_S32_S1x32 := by
  after_results
  rfl

/-- No stretch writes a weight matrix, an index array or a later layer's bias. -/
theorem s0_w (W : Valuation τ sig (Elt Ideal)) :
    after hostOps0 W (Proc.devRef .tc main_arg3) = W (Proc.devRef .tc main_arg3) := by
  after_results
theorem s0_k1 (W : Valuation τ sig (Elt Ideal)) :
    after hostOps0 W (Proc.devRef .tc main_arg1) = W (Proc.devRef .tc main_arg1) := by
  after_results
theorem s0_k2 (W : Valuation τ sig (Elt Ideal)) :
    after hostOps0 W (Proc.devRef .tc main_arg2) = W (Proc.devRef .tc main_arg2) := by
  after_results
theorem s0_k5 (W : Valuation τ sig (Elt Ideal)) :
    after hostOps0 W (Proc.devRef .tc main_arg5) = W (Proc.devRef .tc main_arg5) := by
  after_results
theorem s0_k6 (W : Valuation τ sig (Elt Ideal)) :
    after hostOps0 W (Proc.devRef .tc main_arg6) = W (Proc.devRef .tc main_arg6) := by
  after_results
theorem s0_k7 (W : Valuation τ sig (Elt Ideal)) :
    after hostOps0 W (Proc.devRef .tc main_arg7) = W (Proc.devRef .tc main_arg7) := by
  after_results
theorem s0_k8 (W : Valuation τ sig (Elt Ideal)) :
    after hostOps0 W (Proc.devRef .tc main_arg8) = W (Proc.devRef .tc main_arg8) := by
  after_results

/-- The second stretch aggregates the first layer's output. -/
theorem s1_agg (W : Valuation τ sig (Elt Ideal)) :
    after hostOps1 W (Proc.devRef .tc main_v21)
      = aggK (W (Proc.devRef .tc main_v11)) (W (Proc.devRef .tc main_arg1)) (W (Proc.devRef .tc main_arg2)) := by
  after_results
  rfl

/-- The second stretch reshapes the second bias to a row. -/
theorem s1_bias (W : Valuation τ sig (Elt Ideal)) :
    after hostOps1 W (Proc.devRef .tc main_v22) = shapeCast S1x32 (W (Proc.devRef .tc main_arg6)) shapeCasts_S32_S1x32 := by
  after_results
  rfl

theorem s1_w (W : Valuation τ sig (Elt Ideal)) :
    after hostOps1 W (Proc.devRef .tc main_arg5) = W (Proc.devRef .tc main_arg5) := by
  after_results
theorem s1_k1 (W : Valuation τ sig (Elt Ideal)) :
    after hostOps1 W (Proc.devRef .tc main_arg1) = W (Proc.devRef .tc main_arg1) := by
  after_results
theorem s1_k2 (W : Valuation τ sig (Elt Ideal)) :
    after hostOps1 W (Proc.devRef .tc main_arg2) = W (Proc.devRef .tc main_arg2) := by
  after_results
theorem s1_k7 (W : Valuation τ sig (Elt Ideal)) :
    after hostOps1 W (Proc.devRef .tc main_arg7) = W (Proc.devRef .tc main_arg7) := by
  after_results
theorem s1_k8 (W : Valuation τ sig (Elt Ideal)) :
    after hostOps1 W (Proc.devRef .tc main_arg8) = W (Proc.devRef .tc main_arg8) := by
  after_results

/-- The third stretch aggregates the second layer's output. -/
theorem s2_agg (W : Valuation τ sig (Elt Ideal)) :
    after hostOps2 W (Proc.devRef .tc main_v33)
      = aggK (W (Proc.devRef .tc main_v23)) (W (Proc.devRef .tc main_arg1)) (W (Proc.devRef .tc main_arg2)) := by
  after_results
  rfl

/-- The third stretch reshapes the output layer's bias to a row. -/
theorem s2_bias (W : Valuation τ sig (Elt Ideal)) :
    after hostOps2 W (Proc.devRef .tc main_v34) = shapeCast S1x16 (W (Proc.devRef .tc main_arg8)) shapeCasts_S16_S1x16 := by
  after_results
  rfl

theorem s2_w (W : Valuation τ sig (Elt Ideal)) :
    after hostOps2 W (Proc.devRef .tc main_arg7) = W (Proc.devRef .tc main_arg7) := by
  after_results

/-! ## The arguments at the boundaries -/

variable (m : (ℓ : Loc nD τ sig) → Buf (Elt Ideal) ℓ) (ρ : Dev nD → PrngReg)

theorem W2_arg1 (c : Dev nD) : W2 m ρ c (Proc.devRef .tc main_arg1) = m ((c : Thread nD τ).loc main_arg1) :=
  (W2_of_ne m ρ c main_arg1 (by decide)).trans (s0_k1 (W0 m ρ c))
theorem W2_arg2 (c : Dev nD) : W2 m ρ c (Proc.devRef .tc main_arg2) = m ((c : Thread nD τ).loc main_arg2) :=
  (W2_of_ne m ρ c main_arg2 (by decide)).trans (s0_k2 (W0 m ρ c))
theorem W2_arg5 (c : Dev nD) : W2 m ρ c (Proc.devRef .tc main_arg5) = m ((c : Thread nD τ).loc main_arg5) :=
  (W2_of_ne m ρ c main_arg5 (by decide)).trans (s0_k5 (W0 m ρ c))
theorem W2_arg6 (c : Dev nD) : W2 m ρ c (Proc.devRef .tc main_arg6) = m ((c : Thread nD τ).loc main_arg6) :=
  (W2_of_ne m ρ c main_arg6 (by decide)).trans (s0_k6 (W0 m ρ c))
theorem W2_arg7 (c : Dev nD) : W2 m ρ c (Proc.devRef .tc main_arg7) = m ((c : Thread nD τ).loc main_arg7) :=
  (W2_of_ne m ρ c main_arg7 (by decide)).trans (s0_k7 (W0 m ρ c))
theorem W2_arg8 (c : Dev nD) : W2 m ρ c (Proc.devRef .tc main_arg8) = m ((c : Thread nD τ).loc main_arg8) :=
  (W2_of_ne m ρ c main_arg8 (by decide)).trans (s0_k8 (W0 m ρ c))

theorem W4_arg1 (c : Dev nD) : W4 m ρ c (Proc.devRef .tc main_arg1) = m ((c : Thread nD τ).loc main_arg1) :=
  (W4_of_ne m ρ c main_arg1 (by decide)).trans ((s1_k1 (W2 m ρ c)).trans (W2_arg1 m ρ c))
theorem W4_arg2 (c : Dev nD) : W4 m ρ c (Proc.devRef .tc main_arg2) = m ((c : Thread nD τ).loc main_arg2) :=
  (W4_of_ne m ρ c main_arg2 (by decide)).trans ((s1_k2 (W2 m ρ c)).trans (W2_arg2 m ρ c))
theorem W4_arg7 (c : Dev nD) : W4 m ρ c (Proc.devRef .tc main_arg7) = m ((c : Thread nD τ).loc main_arg7) :=
  (W4_of_ne m ρ c main_arg7 (by decide)).trans ((s1_k7 (W2 m ρ c)).trans (W2_arg7 m ρ c))
theorem W4_arg8 (c : Dev nD) : W4 m ρ c (Proc.devRef .tc main_arg8) = m ((c : Thread nD τ).loc main_arg8) :=
  (W4_of_ne m ρ c main_arg8 (by decide)).trans ((s1_k8 (W2 m ρ c)).trans (W2_arg8 m ρ c))

/-! ## The layers' outputs -/

/-- At the first dense stage's exit its output array is the first layer of the launch contents. -/
theorem out1 (c : Dev nD) :
    (W2 m ρ c (Proc.devRef .tc main_v11) : (⟨2, ![100000, 32]⟩ : Shape).Idx → EReal)
      = act (dense (aggK (m ((c : Thread nD τ).loc main_arg0)) (m ((c : Thread nD τ).loc main_arg1)) (m ((c : Thread nD τ).loc main_arg2)))
          (m ((c : Thread nD τ).loc main_arg3)) (m ((c : Thread nD τ).loc main_arg4))) := by
  refine (W2_arr m ρ c 3).trans ?_
  rw [Layer0.final (V1 m ρ) c]
  show act (affine (M := 100000) (K := 32) (N := 32) (after hostOps0 (W0 m ρ c) (Proc.devRef .tc main_v9))
      (after hostOps0 (W0 m ρ c) (Proc.devRef .tc main_arg3)) (after hostOps0 (W0 m ρ c) (Proc.devRef .tc main_v10))) = _
  rw [s0_agg, s0_w, s0_bias]
  exact congrArg act (affine_row_of_vector _ _ _ _)

/-- At the second dense stage's exit its output array is the second layer of the first's output. -/
theorem out2 (c : Dev nD) :
    (W4 m ρ c (Proc.devRef .tc main_v23) : (⟨2, ![100000, 32]⟩ : Shape).Idx → EReal)
      = act (dense (aggK (W2 m ρ c (Proc.devRef .tc main_v11)) (m ((c : Thread nD τ).loc main_arg1)) (m ((c : Thread nD τ).loc main_arg2)))
          (m ((c : Thread nD τ).loc main_arg5)) (m ((c : Thread nD τ).loc main_arg6))) := by
  refine (W4_arr m ρ c 3).trans ?_
  rw [Layer1.final (V3 m ρ) c]
  show act (affine (M := 100000) (K := 32) (N := 32) (after hostOps1 (W2 m ρ c) (Proc.devRef .tc main_v21))
      (after hostOps1 (W2 m ρ c) (Proc.devRef .tc main_arg5)) (after hostOps1 (W2 m ρ c) (Proc.devRef .tc main_v22))) = _
  rw [s1_agg, s1_w, s1_bias, W2_arg1, W2_arg2, W2_arg5, W2_arg6]
  exact congrArg act (affine_row_of_vector _ _ _ _)

/-- At the last dense stage's exit the result array is the output layer of the second's output. -/
theorem out3 (c : Dev nD) :
    (W6 m ρ c (Proc.devRef .tc main_v35) : (⟨2, ![100000, 16]⟩ : Shape).Idx → EReal)
      = dense (aggK (W4 m ρ c (Proc.devRef .tc main_v23)) (m ((c : Thread nD τ).loc main_arg1)) (m ((c : Thread nD τ).loc main_arg2)))
          (m ((c : Thread nD τ).loc main_arg7)) (m ((c : Thread nD τ).loc main_arg8)) := by
  refine (W6_arr m ρ c 3).trans ?_
  rw [Layer2.final (V5 m ρ) c]
  show affine (M := 100000) (K := 32) (N := 16) (after hostOps2 (W4 m ρ c) (Proc.devRef .tc main_v33))
      (after hostOps2 (W4 m ρ c) (Proc.devRef .tc main_arg7)) (after hostOps2 (W4 m ρ c) (Proc.devRef .tc main_v34)) = _
  rw [s2_agg, s2_w, s2_bias, W4_arg1, W4_arg2, W4_arg7, W4_arg8]
  exact affine_row_of_vector _ _ _ _

/-- The network of the launch contents: what the result array ends holding. -/
def result (c : Dev nD) : (⟨2, ![100000, 16]⟩ : Shape).Idx → EReal :=
  gcn (fun h => aggK h (m ((c : Thread nD τ).loc main_arg1)) (m ((c : Thread nD τ).loc main_arg2)))
    (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

theorem result_eq (c : Dev nD) : W6 m ρ c (Proc.devRef .tc main_v35) = result m c := by
  refine (out3 m ρ c).trans ?_
  rw [out2, out1]
  rfl

/-- The run, read: the result array at the network of the arguments, the arguments unchanged. -/
theorem run : θ_run defs (onTc (τ := τ) (main (F := Ideal))) ⟨m, fun _ => 0, ρ⟩ (fun r => ∀ c : Dev nD,
      r.2.mem ((c.tc : Thread nD τ).loc main_v35) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (Cert.KernelIdeal.Run.run m ρ)

end Cert.KernelIdeal.Net

end
-- ==== Proof.RefValue.lean ====
/-
  The reference's result read as the three-layer network. Each layer is: the neighbour aggregation of the features
  (the gather and scatter-add, kept as one function of the feature array), the host's dot product with the weights,
  the bias broadcast over the rows and, in the first two layers, the leaky rectifier spelt as compare, multiply and
  choose. Read at an index, the dot product is the sum over the inner index and the broadcast bias is the bias at
  the column, which is the dense layer of the specification; the three layers compose to `gcn`.
-/
import proofs.«178452_j44023414784199_1_alg».proof.Proof.Gen.ReferenceIdeal.Run
import proofs.«178452_j44023414784199_1_alg».proof.Proof.Gen.ReferenceIdeal.Read
import proofs.«178452_j44023414784199_1_alg».proof.Proof.Layer

noncomputable section

open Idealize.ShloMosaic Idealize.ShloMosaic.TcCoe Idealize.SL.Sem Idealize.ShloMosaic.ValueIdx

namespace Cert.ReferenceIdeal.Net

open Cert.ReferenceIdeal Cert.ReferenceIdeal.Gen Cert.ReferenceIdeal.Read Cert.Gcn

/-! ## The composed index functions are the coordinates -/

theorem lidx10 (i : S100000x32.Idx) (k : Fin 32) : lidx_main_v10 i k = ix2 (i 0) k :=
  funext fun a => Fin.ext (by match a with | ⟨0, _⟩ => rfl | ⟨1, _⟩ => rfl)
theorem ridx10 (i : S100000x32.Idx) (k : Fin 32) : ridx_main_v10 i k = ix2 k (i 1) :=
  funext fun a => Fin.ext (by match a with | ⟨0, _⟩ => rfl | ⟨1, _⟩ => rfl)
theorem bidx12 (i : S100000x32.Idx) : idx_main_v11 (idx_main_v12 i) = ix1 (i 1) :=
  funext fun a => Fin.ext (by match a with | ⟨0, _⟩ => rfl)

theorem lidx29 (i : S100000x32.Idx) (k : Fin 32) : lidx_main_v29 i k = ix2 (i 0) k :=
  funext fun a => Fin.ext (by match a with | ⟨0, _⟩ => rfl | ⟨1, _⟩ => rfl)
theorem ridx29 (i : S100000x32.Idx) (k : Fin 32) : ridx_main_v29 i k = ix2 k (i 1) :=
  funext fun a => Fin.ext (by match a with | ⟨0, _⟩ => rfl | ⟨1, _⟩ => rfl)
theorem bidx31 (i : S100000x32.Idx) : idx_main_v30 (idx_main_v31 i) = ix1 (i 1) :=
  funext fun a => Fin.ext (by match a with | ⟨0, _⟩ => rfl)

theorem lidx48 (i : S100000x16.Idx) (k : Fin 32) : lidx_main_v48 i k = ix2 (i 0) k :=
  funext fun a => Fin.ext (by match a with | ⟨0, _⟩ => rfl | ⟨1, _⟩ => rfl)
theorem ridx48 (i : S100000x16.Idx) (k : Fin 32) : ridx_main_v48 i k = ix2 k (i 1) :=
  funext fun a => Fin.ext (by match a with | ⟨0, _⟩ => rfl | ⟨1, _⟩ => rfl)
theorem bidx50 (i : S100000x16.Idx) : idx_main_v49 (idx_main_v50 i) = ix1 (i 1) :=
  funext fun a => Fin.ext (by match a with | ⟨0, _⟩ => rfl)

/-! ## The layers -/

/-- The first layer: the rectified dense layer of the aggregated input features. -/
theorem layer1 (x0 : (⟨S100000x32, .f32⟩ : BufTy).Contents (Elt Ideal)) (x1 x2 : (⟨S1600000, .i32⟩ : BufTy).Contents (Elt Ideal))
    (x3 : (⟨S32x32, .f32⟩ : BufTy).Contents (Elt Ideal)) (x4 : (⟨S32, .f32⟩ : BufTy).Contents (Elt Ideal)) :
    val_main_v18 (F := Ideal) x0 x1 x2 x3 x4 = act (dense (val_main_v9 (F := Ideal) x0 x1 x2) x3 x4) := by
  funext i
  rw [val_main_v18_apply, val_main_v15_apply, val_main_v17_apply, val_main_v13_apply, val_main_v10_apply,
    val_main_v12_apply, val_main_v11_apply, val_main_v14_apply, val_main_v16_apply, val_main_cst_1_apply,
    val_main_cst_2_apply]
  simp only [lidx10, ridx10, bidx12]
  rfl

/-- The second layer's aggregation is the first's, of the first layer's output. -/
theorem agg2 (x0 : (⟨S100000x32, .f32⟩ : BufTy).Contents (Elt Ideal)) (x1 x2 : (⟨S1600000, .i32⟩ : BufTy).Contents (Elt Ideal))
    (x3 : (⟨S32x32, .f32⟩ : BufTy).Contents (Elt Ideal)) (x4 : (⟨S32, .f32⟩ : BufTy).Contents (Elt Ideal)) :
    val_main_v28 (F := Ideal) x0 x1 x2 x3 x4 = val_main_v9 (F := Ideal) (val_main_v18 (F := Ideal) x0 x1 x2 x3 x4) x1 x2 := rfl

/-- The second layer: the rectified dense layer of the aggregated hidden features. -/
theorem layer2 (x0 : (⟨S100000x32, .f32⟩ : BufTy).Contents (Elt Ideal)) (x1 x2 : (⟨S1600000, .i32⟩ : BufTy).Contents (Elt Ideal))
    (x3 : (⟨S32x32, .f32⟩ : BufTy).Contents (Elt Ideal)) (x4 : (⟨S32, .f32⟩ : BufTy).Contents (Elt Ideal))
    (x5 : (⟨S32x32, .f32⟩ : BufTy).Contents (Elt Ideal)) (x6 : (⟨S32, .f32⟩ : BufTy).Contents (Elt Ideal)) :
    val_main_v37 (F := Ideal) x0 x1 x2 x3 x4 x5 x6 = act (dense (val_main_v28 (F := Ideal) x0 x1 x2 x3 x4) x5 x6) := by
  funext i
  rw [val_main_v37_apply, val_main_v34_apply, val_main_v36_apply, val_main_v32_apply, val_main_v29_apply,
    val_main_v31_apply, val_main_v30_apply, val_main_v33_apply, val_main_v35_apply, val_main_cst_6_apply,
    val_main_cst_7_apply]
  simp only [lidx29, ridx29, bidx31]
  rfl

/-- The third layer's aggregation is the first's, of the second layer's output. -/
theorem agg3 (x0 : (⟨S100000x32, .f32⟩ : BufTy).Contents (Elt Ideal)) (x1 x2 : (⟨S1600000, .i32⟩ : BufTy).Contents (Elt Ideal))
    (x3 : (⟨S32x32, .f32⟩ : BufTy).Contents (Elt Ideal)) (x4 : (⟨S32, .f32⟩ : BufTy).Contents (Elt Ideal))
    (x5 : (⟨S32x32, .f32⟩ : BufTy).Contents (Elt Ideal)) (x6 : (⟨S32, .f32⟩ : BufTy).Contents (Elt Ideal)) :
    val_main_v47 (F := Ideal) x0 x1 x2 x3 x4 x5 x6
      = val_main_v9 (F := Ideal) (val_main_v37 (F := Ideal) x0 x1 x2 x3 x4 x5 x6) x1 x2 := rfl

/-- The output layer: the dense layer of the aggregated hidden features, no rectifier. -/
theorem layer3 (x0 : (⟨S100000x32, .f32⟩ : BufTy).Contents (Elt Ideal)) (x1 x2 : (⟨S1600000, .i32⟩ : BufTy).Contents (Elt Ideal))
    (x3 : (⟨S32x32, .f32⟩ : BufTy).Contents (Elt Ideal)) (x4 : (⟨S32, .f32⟩ : BufTy).Contents (Elt Ideal))
    (x5 : (⟨S32x32, .f32⟩ : BufTy).Contents (Elt Ideal)) (x6 : (⟨S32, .f32⟩ : BufTy).Contents (Elt Ideal))
    (x7 : (⟨S32x16, .f32⟩ : BufTy).Contents (Elt Ideal)) (x8 : (⟨S16, .f32⟩ : BufTy).Contents (Elt Ideal)) :
    val_main_v51 (F := Ideal) x0 x1 x2 x3 x4 x5 x6 x7 x8
      = dense (val_main_v47 (F := Ideal) x0 x1 x2 x3 x4 x5 x6) x7 x8 := by
  funext i
  rw [val_main_v51_apply, val_main_v48_apply, val_main_v50_apply, val_main_v49_apply]
  simp only [lidx48, ridx48, bidx50]
  rfl

/-- The reference's result is the three-layer network over its own aggregation. -/
theorem result_eq (x0 : (⟨S100000x32, .f32⟩ : BufTy).Contents (Elt Ideal)) (x1 x2 : (⟨S1600000, .i32⟩ : BufTy).Contents (Elt Ideal))
    (x3 : (⟨S32x32, .f32⟩ : BufTy).Contents (Elt Ideal)) (x4 : (⟨S32, .f32⟩ : BufTy).Contents (Elt Ideal))
    (x5 : (⟨S32x32, .f32⟩ : BufTy).Contents (Elt Ideal)) (x6 : (⟨S32, .f32⟩ : BufTy).Contents (Elt Ideal))
    (x7 : (⟨S32x16, .f32⟩ : BufTy).Contents (Elt Ideal)) (x8 : (⟨S16, .f32⟩ : BufTy).Contents (Elt Ideal)) :
    val_main_v51 (F := Ideal) x0 x1 x2 x3 x4 x5 x6 x7 x8
      = gcn (fun h => val_main_v9 (F := Ideal) h x1 x2) x0 x3 x4 x5 x6 x7 x8 := by
  rw [layer3, agg3, layer2, agg2, layer1]
  rfl

end Cert.ReferenceIdeal.Net

end
-- ==== Proof.lean ====
/-
  A three-layer graph network — each layer the sum of the features over the incoming edges, a product with a weight
  matrix, a bias and (but for the last) the leaky rectifier of slope f32(0.1) — computed by a program whose dense
  stages run as pipelined kernels over blocks of 2000 rows, against the same network written in plain array operations.
  Over the extended reals both results are ONE function of the arguments: the kernels' narrowing of their operands is the
  identity there, a matrix unit's product into a zero accumulator and the host's dot product are the same sum over the
  inner index, a block of rows of the product depends only on the same rows of the left operand, and the two programs
  apply the same aggregation (gather at the wrapped source indices, scatter-add at the destinations) and the same
  rectifier word for word. The argument needs no law of the extended reals beyond `0 + x = x`, so the precondition
  (finite inputs) is never opened.
-/
import proofs.«178452_j44023414784199_1_alg».proof.Defs
import proofs.«178452_j44023414784199_1_alg».proof.Proof.Gen.Kernel
import proofs.«178452_j44023414784199_1_alg».proof.Proof.Gen.Kernel.Skeleton
import proofs.«178452_j44023414784199_1_alg».proof.Proof.Gen.Kernel.Launch
import proofs.«178452_j44023414784199_1_alg».proof.Proof.Gen.Kernel.Points
import proofs.«178452_j44023414784199_1_alg».proof.Proof.Gen.Kernel.Frame
import proofs.«178452_j44023414784199_1_alg».proof.Proof.Gen.KernelIdeal
import proofs.«178452_j44023414784199_1_alg».proof.Proof.Gen.KernelIdeal.Skeleton
import proofs.«178452_j44023414784199_1_alg».proof.Proof.Gen.KernelIdeal.Launch
import proofs.«178452_j44023414784199_1_alg».proof.Proof.Gen.KernelIdeal.Points
import proofs.«178452_j44023414784199_1_alg».proof.Proof.Gen.KernelIdeal.Frame
import proofs.«178452_j44023414784199_1_alg».proof.Proof.Gen.ReferenceIdeal
import proofs.«178452_j44023414784199_1_alg».proof.Proof.Gen.ReferenceIdeal.Run
import proofs.«178452_j44023414784199_1_alg».proof.Proof.Gen.ReferenceIdeal.Read
import proofs.«178452_j44023414784199_1_alg».proof.Proof.Gen.Pre_finite_inputs
import proofs.«178452_j44023414784199_1_alg».proof.Proof.KernelValue
import proofs.«178452_j44023414784199_1_alg».proof.Proof.RefValue
import Idealize.ShloMosaic.Adequacy
import Idealize.ShloMosaic.Init

noncomputable section

namespace Cert.Proof

open Idealize.ShloMosaic Idealize.SL.Sem

/-- The two programs' neighbour aggregation is one function of the features and the index arrays: the same host
    operations over the same shapes. -/
theorem agg_eq (h : (⟨Cert.KernelIdeal.S100000x32, .f32⟩ : BufTy).Contents (Elt Ideal))
    (src dst : (⟨Cert.KernelIdeal.S1600000, .i32⟩ : BufTy).Contents (Elt Ideal)) :
    Cert.ReferenceIdeal.Read.val_main_v9 (F := Ideal) h src dst = Cert.KernelIdeal.Net.aggK h src dst := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at the three-layer network of the arguments they agree on. -/
theorem algebraic : Cert.algebraic_KernelIdeal_ReferenceIdeal := by
  intro m ρ m' ρ' _ hagree
  refine ⟨fun c => Cert.KernelIdeal.Net.result m c, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.Net.result_eq]
  obtain ⟨e0, e1, e2, e3, e4, e5, e6, e7, e8⟩ := hagree c
  rw [e0, e1, e2, e3, e4, e5, e6, e7, e8]
  unfold Cert.KernelIdeal.Net.result
  refine congrArg (fun a => Cert.Gcn.gcn a _ _ _ _ _ _ _) (funext fun h => agg_eq h _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
